-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S1000x16384 : Shape := ⟨2, ![1000, 16384]⟩
abbrev S1000 : Shape := ⟨1, ![1000]⟩
abbrev S_ : Shape := ⟨0, ![]⟩

class Facts : Prop where
  bcast_S_S1000 : S_.BroadcastsInDim S1000 (![] : Fin 0 → Fin S1000.rank)
  reducesTo_S1000_S_d0 : S1000.ReducesTo [0] S_
  h_S_ : 0 < S_.numel

variable [Facts]

def fn {F : FTy → Type} [FloatOps F] (main_arg0 : IVec S8192x16384 1) (main_arg1 : IVec S1000x16384 1) (main_arg2 : FVec F S1000 .f32) (main_arg3 : FVec F S1000 .f32) : IVec S_ 1 :=
  let main_v0 : FVec F S1000 .f32 := Host.absf main_arg2
  let main_cst : FVec F S_ .f32 := constant S_ .f32 0x7F800000#32
  let main_v1 : FVec F S1000 .f32 := broadcastInDim S1000 ![] bcast_S_S1000 main_cst
  let main_v2 : IVec S1000 1 := cmpf .olt main_v0 main_v1
  let main_c : IVec S_ 1 := constantI S_ 1 1#1
  let main_v3 : IVec S_ 1 := (fun x v => Host.reduce IntOp.andi x v reducesTo_S1000_S_d0 h_S_) main_v2 main_c
  let main_v4 : FVec F S1000 .f32 := Host.absf main_arg3
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  main_v8
-- ==== Kernel.lean ====
abbrev S8192x16384 : Shape := ⟨2, ![8192, 16384]⟩
abbrev S1000x16384 : Shape := ⟨2, ![1000, 16384]⟩
abbrev S1000 : Shape := ⟨1, ![1000]⟩
abbrev S1x1000 : Shape := ⟨2, ![1, 1000]⟩
abbrev S8192x1000 : Shape := ⟨2, ![8192, 1000]⟩
abbrev S1024x2048 : Shape := ⟨2, ![1024, 2048]⟩
abbrev S1000x2048 : Shape := ⟨2, ![1000, 2048]⟩
abbrev S1024x1000 : Shape := ⟨2, ![1024, 1000]⟩

abbrev nBuf : Space → Nat
  | .hbm => 9
  | .vmem => 8
  | .smem => 0
  | _ => 0

abbrev bufTy : (tb : Table) → Fin (tcTables nBuf tb) → BufTy
  | .hbm, ⟨0, _⟩ => ⟨S8192x16384, .i1⟩
  | .hbm, ⟨1, _⟩ => ⟨S1000x16384, .i1⟩
  | .hbm, ⟨2, _⟩ => ⟨S1000, .f32⟩
  | .hbm, ⟨3, _⟩ => ⟨S1000, .f32⟩
  | .hbm, ⟨4, _⟩ => ⟨S1x1000, .f32⟩
  | .hbm, ⟨5, _⟩ => ⟨S1x1000, .f32⟩
  | .hbm, ⟨6, _⟩ => ⟨S8192x16384, .i32⟩
  | .hbm, ⟨7, _⟩ => ⟨S1000x16384, .i32⟩
  | .hbm, ⟨8, _⟩ => ⟨S8192x1000, .f32⟩
  | .local _ .vmem, ⟨0, _⟩ => ⟨S1024x2048, .i32⟩
  | .local _ .vmem, ⟨1, _⟩ => ⟨S1024x2048, .i32⟩
  | .local _ .vmem, ⟨2, _⟩ => ⟨S1000x2048, .i32⟩
  | .local _ .vmem, ⟨3, _⟩ => ⟨S1000x2048, .i32⟩
  | .local _ .vmem, ⟨4, _⟩ => ⟨S1x1000, .f32⟩
  | .local _ .vmem, ⟨5, _⟩ => ⟨S1x1000, .f32⟩
  | .local _ .vmem, ⟨6, _⟩ => ⟨S1024x1000, .f32⟩
  | .local _ .vmem, ⟨7, _⟩ => ⟨S1024x1000, .f32⟩
  | _, _ => ⟨S8192x16384, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1000_S1x1000 : S1000.ShapeCasts S1x1000
  natLt_1_32 : 1 < 32
  inb_S1024x1000_S1024x1000_0_0 : ∀ a, (![0, 0] : Fin 2 → Nat) a + S1024x1000.size a ≤ S1024x1000.size a
  h_S1024x1000 : 0 < S1024x1000.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1000x2048_S1000x2048_0_0 : ∀ a, (![0, 0] : Fin 2 → Nat) a + S1000x2048.size a ≤ S1000x2048.size a
  h_S1000x2048 : 0 < S1000x2048.numel
  shapeCasts_S1024x1000_S1024x1000 : S1024x1000.ShapeCasts S1024x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  dot_S1024x2048_S1000x2048_S1024x1000_1_1_0_0_n_n_wf : DotDims.WF S1024x2048 S1000x2048 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x16384.size a
  hwx0_0 : ∀ i : grid0.Coords, EltTy.bits .i32 = 32 ∨ (Rect.block (s := S8192x16384) S1024x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S1000x16384.size a
  hwx0_1 : ∀ i : grid0.Coords, EltTy.bits .i32 = 32 ∨ (Rect.block (s := S1000x16384) S1000x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1000.size a ≤ S8192x1000.size a
  hwx0_4 : ∀ i : grid0.Coords, EltTy.bits .f32 = 32 ∨ (Rect.block (s := S8192x1000) S1024x1000.size (cc0_transform_4 i) (hinb0_4 i)).WholeWords (EltTy.packing .f32)

variable [Facts₀]

def dot_S1024x2048_S1000x2048_S1024x1000_1_1_0_0_n_n : DotDims S1024x2048 S1000x2048 S1024x1000 where
  lhsContracting := [1]
  rhsContracting := [1]
  lhsNonContracting := [0]
  rhsNonContracting := [0]
  lhsBatch := []
  rhsBatch := []
  wf := dot_S1024x2048_S1000x2048_S1024x1000_1_1_0_0_n_n_wf

abbrev win0_0 : Pipeline.Window sig grid0 :=
  Pipeline.Window.ofSpec (Memref.whole main_v2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1000x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x16384 : Shape := ⟨2, ![8192, 16384]⟩
abbrev S1000x16384 : Shape := ⟨2, ![1000, 16384]⟩
abbrev S1000 : Shape := ⟨1, ![1000]⟩
abbrev S8192x1000 : Shape := ⟨2, ![8192, 1000]⟩
abbrev S_ : Shape := ⟨0, ![]⟩
abbrev S1x1000 : Shape := ⟨2, ![1, 1000]⟩

abbrev nBuf : Space → Nat
  | .hbm => 38
  | .vmem => 0
  | .smem => 0
  | _ => 0

abbrev bufTy : (tb : Table) → Fin (tcTables nBuf tb) → BufTy
  | .hbm, ⟨0, _⟩ => ⟨S8192x16384, .i1⟩
  | .hbm, ⟨1, _⟩ => ⟨S1000x16384, .i1⟩
  | .hbm, ⟨2, _⟩ => ⟨S1000, .f32⟩
  | .hbm, ⟨3, _⟩ => ⟨S1000, .f32⟩
  | .hbm, ⟨4, _⟩ => ⟨S8192x16384, .f32⟩
  | .hbm, ⟨5, _⟩ => ⟨S1000x16384, .f32⟩
  | .hbm, ⟨6, _⟩ => ⟨S8192x1000, .f32⟩
  | .hbm, ⟨7, _⟩ => ⟨S_, .f32⟩
  | .hbm, ⟨8, _⟩ => ⟨S1000, .f32⟩
  | .hbm, ⟨9, _⟩ => ⟨S1000, .f32⟩
  | .hbm, ⟨10, _⟩ => ⟨S1x1000, .f32⟩
  | .hbm, ⟨11, _⟩ => ⟨S8192x1000, .f32⟩
  | .hbm, ⟨12, _⟩ => ⟨S8192x1000, .f32⟩
  | .hbm, ⟨13, _⟩ => ⟨S1x1000, .f32⟩
  | .hbm, ⟨14, _⟩ => ⟨S8192x1000, .f32⟩
  | .hbm, ⟨15, _⟩ => ⟨S8192x1000, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x1000, .i1⟩
  | .hbm, ⟨20, _⟩ => ⟨S_, .f32⟩
  | .hbm, ⟨21, _⟩ => ⟨S8192x1000, .f32⟩
  | .hbm, ⟨22, _⟩ => ⟨S8192x1000, .f32⟩
  | .hbm, ⟨23, _⟩ => ⟨S_, .f32⟩
  | .hbm, ⟨24, _⟩ => ⟨S8192x1000, .f32⟩
  | .hbm, ⟨25, _⟩ => ⟨S8192x1000, .i1⟩
  | .hbm, ⟨26, _⟩ => ⟨S_, .f32⟩
  | .hbm, ⟨27, _⟩ => ⟨S8192x1000, .f32⟩
  | .hbm, ⟨28, _⟩ => ⟨S8192x1000, .f32⟩
  | .hbm, ⟨29, _⟩ => ⟨S_, .f32⟩
  | .hbm, ⟨30, _⟩ => ⟨S8192x1000, .f32⟩
  | .hbm, ⟨31, _⟩ => ⟨S8192x1000, .i1⟩
  | .hbm, ⟨32, _⟩ => ⟨S_, .f32⟩
  | .hbm, ⟨33, _⟩ => ⟨S8192x1000, .f32⟩
  | .hbm, ⟨34, _⟩ => ⟨S8192x1000, .f32⟩
  | .hbm, ⟨35, _⟩ => ⟨S_, .f32⟩
  | .hbm, ⟨36, _⟩ => ⟨S8192x1000, .f32⟩
  | .hbm, ⟨37, _⟩ => ⟨S8192x1000, .f32⟩
  | _, _ => ⟨S8192x16384, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_call0_v0 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_call1_v0 : Ref sig .tc := ⟨.hbm, 27, rfl⟩
abbrev main_call0_v6 : Ref sig .tc := ⟨.hbm, 28, rfl⟩
abbrev main_call0_cst_0 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_call2_v0 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x16384_S1000x16384_S8192x1000_1_1_0_0_n_n_wf : DotDims.WF S8192x16384 S1000x16384 S8192x1000 [1] [1] [0] [0] [] []

variable [Facts₀]

def dot_S8192x16384_S1000x16384_S8192x1000_1_1_0_0_n_n : DotDims S8192x16384 S1000x16384 S8192x1000 where
  lhsContracting := [1]
  rhsContracting := [1]
  lhsNonContracting := [0]
  rhsNonContracting := [0]
  lhsBatch := []
  rhsBatch := []
  wf := dot_S8192x16384_S1000x16384_S8192x1000_1_1_0_0_n_n_wf

class Facts : Prop extends Facts₀ where

variable [Facts]
-- ==== Proof.RefRun.lean ====
/-
  The reference program's run, read back. Its @main is a straight line of thirty-four host operations once the two
  outlined functions are unfolded at their calls: the two inputs of bits converted to floats, their contraction over
  the shared axis, the per-class deviation clamped from below, the z-score, the three selects that replace a
  not-a-number and the two infinities, and the division by the temperature. Every weakly fair execution terminates
  with the result buffer at the composed term `refTerm` of the four argument arrays, and with the arguments unchanged.
-/
import proofs.«415984_j43439299231975_3_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- A scalar constant spread over the whole [8192, 1000] result shape. -/
abbrev splat (b : BitVec 32) : FVec F S8192x1000 .f32 :=
  broadcastInDim S8192x1000 ![] bcast_S_S8192x1000 (constant S_ .f32 b)

/-- A per-class vector [1000] spread over the rows of the [8192, 1000] result shape (through [1, 1000]). -/
abbrev rows (v : FVec F S1000 .f32) : FVec F S8192x1000 .f32 :=
  broadcastInDim S8192x1000 ![0, 1] bcast_S1x1000_S8192x1000_0_1 (broadcastInDim S1x1000 ![1] bcast_S1000_S1x1000_1 v)

/-- The z-score before the replacement of special values: the contraction of the two bit arrays read as 0/1 floats,
    minus the class mean, over the class deviation clamped from below by the literal `0x3C3504F3`. -/
def zscore (x : IVec S8192x16384 1) (s : IVec S1000x16384 1) (zmu zstd : FVec F S1000 .f32) : FVec F S8192x1000 .f32 :=
  Host.divf
    (subf (Host.dotGeneral dot_S8192x16384_S1000x16384_S8192x1000_1_1_0_0_n_n none (uitofp (F := F) .f32 x) (uitofp (F := F) .f32 s)) (rows zmu))
    (rows (maximumf zstd (broadcastInDim S1000 ![] bcast_S_S1000 (constant S_ .f32 0x3C3504F3#32))))

/-- The replacement of special values and the division by the temperature, applied to a z-score array. -/
def finish (z : FVec F S8192x1000 .f32) : FVec F S8192x1000 .f32 :=
  let w0 := select (cmpf .une z z) (splat 0x00000000#32) z
  let w1 := select (cmpf .oeq w0 (splat 0x7F800000#32)) (splat 0x41200000#32) w0
  let w2 := select (cmpf .oeq w1 (splat 0xFF800000#32)) (splat 0xC1200000#32) w1
  Host.divf w2 (splat 0x3FC00000#32)

/-- The reference's result as one term of its four arguments. -/
def refTerm (x : IVec S8192x16384 1) (s : IVec S1000x16384 1) (zmu zstd : FVec F S1000 .f32) : FVec F S8192x1000 .f32 :=
  finish (zscore x s zmu zstd)

/-- @main's thirty-four operations in order, the calls unfolded: fifteen of @main's own, then the sixteen of the
    special-value replacement (each of its three selects is a conversion of the replacement scalar, its broadcast and
    the select, after the comparison that drives it), then the temperature's constant, its broadcast and the division. -/
abbrev ops : List (HloOp τ sig (Elt F)) :=
  [ unary main_arg0 main_v0 (uitofp .f32 : (⟨S8192x16384, .i1⟩ : BufTy).Contents (Elt F) → (⟨S8192x16384, .f32⟩ : BufTy).Contents (Elt F)),
    unary main_arg1 main_v1 (uitofp .f32 : (⟨S1000x16384, .i1⟩ : BufTy).Contents (Elt F) → (⟨S1000x16384, .f32⟩ : BufTy).Contents (Elt F)),
    binary main_v0 main_v1 main_v2 ((fun l r => Host.dotGeneral dot_S8192x16384_S1000x16384_S8192x1000_1_1_0_0_n_n none l r) : (⟨S8192x16384, .f32⟩ : BufTy).Contents (Elt F) → (⟨S1000x16384, .f32⟩ : BufTy).Contents (Elt F) → (⟨S8192x1000, .f32⟩ : BufTy).Contents (Elt F)),
    nullary main_cst (constant S_ .f32 0x3C3504F3#32),
    unary main_cst main_v3 (broadcastInDim S1000 ![] bcast_S_S1000 : (⟨S_, .f32⟩ : BufTy).Contents (Elt F) → (⟨S1000, .f32⟩ : BufTy).Contents (Elt F)),
    binary main_arg3 main_v3 main_v4 (maximumf : (⟨S1000, .f32⟩ : BufTy).Contents (Elt F) → (⟨S1000, .f32⟩ : BufTy).Contents (Elt F) → (⟨S1000, .f32⟩ : BufTy).Contents (Elt F)),
    unary main_arg2 main_v5 (broadcastInDim S1x1000 ![1] bcast_S1000_S1x1000_1 : (⟨S1000, .f32⟩ : BufTy).Contents (Elt F) → (⟨S1x1000, .f32⟩ : BufTy).Contents (Elt F)),
    unary main_v5 main_v6 (broadcastInDim S8192x1000 ![0, 1] bcast_S1x1000_S8192x1000_0_1 : (⟨S1x1000, .f32⟩ : BufTy).Contents (Elt F) → (⟨S8192x1000, .f32⟩ : BufTy).Contents (Elt F)),
    binary main_v2 main_v6 main_v7 (subf : (⟨S8192x1000, .f32⟩ : BufTy).Contents (Elt F) → (⟨S8192x1000, .f32⟩ : BufTy).Contents (Elt F) → (⟨S8192x1000, .f32⟩ : BufTy).Contents (Elt F)),
    unary main_v4 main_v8 (broadcastInDim S1x1000 ![1] bcast_S1000_S1x1000_1 : (⟨S1000, .f32⟩ : BufTy).Contents (Elt F) → (⟨S1x1000, .f32⟩ : BufTy).Contents (Elt F)),
    unary main_v8 main_v9 (broadcastInDim S8192x1000 ![0, 1] bcast_S1x1000_S8192x1000_0_1 : (⟨S1x1000, .f32⟩ : BufTy).Contents (Elt F) → (⟨S8192x1000, .f32⟩ : BufTy).Contents (Elt F)),
    binary main_v7 main_v9 main_v10 (Host.divf : (⟨S8192x1000, .f32⟩ : BufTy).Contents (Elt F) → (⟨S8192x1000, .f32⟩ : BufTy).Contents (Elt F) → (⟨S8192x1000, .f32⟩ : BufTy).Contents (Elt F)),
    nullary main_cst_0 (constant S_ .f32 0x00000000#32),
    nullary main_cst_1 (constant S_ .f32 0xC1200000#32),
    nullary main_cst_2 (constant S_ .f32 0x41200000#32),
    TRef.binary (.of main_v10) (.of main_v10) main_call0.v0 (cmpf .une),
    TRef.unary (.of main_cst_0) main_call0.v1 id,
    TRef.unary main_call0.v1 main_call0.call0.v0 (broadcastInDim S8192x1000 ![] bcast_S_S8192x1000),
    TRef.ternary main_call0.v0 main_call0.call0.v0 (.of main_v10) main_call0.call0.v1 select,
    TRef.nullary main_call0.cst (constant S_ .f32 0x7F800000#32),
    TRef.unary main_call0.cst main_call0.v3 (broadcastInDim S8192x1000 ![] bcast_S_S8192x1000),
    TRef.binary main_call0.call0.v1 main_call0.v3 main_call0.v4 (cmpf .oeq),
    TRef.unary (.of main_cst_2) main_call0.v5 id,
    TRef.unary main_call0.v5 main_call0.call1.v0 (broadcastInDim S8192x1000 ![] bcast_S_S8192x1000),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S8192x1000 ![] bcast_S_S8192x1000),
    TRef.binary main_call0.call1.v1 main_call0.v7 main_call0.v8 (cmpf .oeq),
    TRef.unary (.of main_cst_1) main_call0.v9 id,
    TRef.unary main_call0.v9 main_call0.call2.v0 (broadcastInDim S8192x1000 ![] bcast_S_S8192x1000),
    TRef.ternary main_call0.v8 main_call0.call2.v0 main_call0.call1.v1 main_call0.call2.v1 select,
    nullary main_cst_3 (constant S_ .f32 0x3FC00000#32),
    unary main_cst_3 main_v12 (broadcastInDim S8192x1000 ![] bcast_S_S8192x1000 : (⟨S_, .f32⟩ : BufTy).Contents (Elt F) → (⟨S8192x1000, .f32⟩ : BufTy).Contents (Elt F)),
    binary main_v11 main_v12 main_v13 (Host.divf : (⟨S8192x1000, .f32⟩ : BufTy).Contents (Elt F) → (⟨S8192x1000, .f32⟩ : BufTy).Contents (Elt F) → (⟨S8192x1000, .f32⟩ : BufTy).Contents (Elt F)) ]

set_option maxRecDepth 1024 in
/-- @main is that straight line: the two functions' definitions unfolded at their calls, both sides are one chain of
    host steps once sequencing is reassociated. -/
theorem main_eq (c : Dev nD) : main (F := F) c = seq ops := by
  simp only [main, fn_nan_to_num.body, fn_where.body, seq, bind_assoc, pure_bind]

set_option maxRecDepth 8192 in
set_option maxHeartbeats 400000 in
/-- The fold of the operations at the result buffer is `refTerm` of the arguments' contents: each operation's result
    decides whether the buffer read is the one it writes, and the typed references' casts are the identity at these
    literal references. -/
theorem out_eq (V : Valuation τ sig (Elt F)) :
    after ops V (main_v13 : DevRef τ sig)
      = refTerm (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    nullary_bufs_sub .., nullary_bufs_sub .., nullary_bufs_sub ..,
    binary_bufs_sub .., unary_bufs_sub .., unary_bufs_sub .., ternary_bufs_sub ..,
    nullary_bufs_sub .., unary_bufs_sub .., binary_bufs_sub .., unary_bufs_sub .., unary_bufs_sub .., ternary_bufs_sub ..,
    nullary_bufs_sub .., unary_bufs_sub .., binary_bufs_sub .., unary_bufs_sub .., unary_bufs_sub .., ternary_bufs_sub ..,
    nullary_bufs_sub .., unary_bufs_sub .., binary_bufs_sub ..⟩

/-- On the one device, for any float values, from any memory with zero counters: every weakly fair execution of @main
    terminates with the result buffer at `refTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.HostRun

end
-- ==== Proof.Popcount.lean ====
/-
  The mathematics both programs compute, stated once over plain index types.

  Each input bit is read as the extended real 0 or 1. The score of a row `b` of the first bit array against a class `c`
  of the second is the number of positions where both hold a one: the sum over the 16384 positions of the product of the
  two bits. The result at `(b, c)` is the score's z-score — the class mean taken off, over the class deviation clamped
  from below by a literal —, with a not-a-number and the two infinities replaced by literals, over the temperature.

  One program takes the whole sum at once; the other takes it in eight consecutive stretches of 2048 positions, adding
  each stretch to what it has so far, starting from zero. Addition of extended reals is commutative and associative
  (a sum of a top and a bottom is defined, so no finiteness is needed), so the two sums are the same: `sum_stretches`.
  One program reads a bit directly as an unsigned number; the other widens it to a word, tests the word against zero,
  widens that bit and reads it signed: the same 0 or 1 (`wordBit_widen`).
-/
import Idealize.ShloMosaic.PureOps.Ideal
import Idealize.ShloMosaic.PureOps.Ideal.Laws
import Idealize.ShloMosaic.Lib.ValueIdx

noncomputable section

open scoped BigOperators

namespace Cert.Popcount

open Idealize.ShloMosaic Idealize.ShloMosaic.ValueIdx

/-- A bit as the extended real `0` or `1`. -/
def bit (b : BitVec 1) : EReal := ((b.toNat : ℝ) : EReal)

/-- A 32-bit word as `0` or `1`: whether it is not the zero word, that bit widened to a word and read as a signed integer. -/
def wordBit (w : BitVec 32) : EReal := ((((IntOp.cmpi .ne w 0#32).setWidth 32).toInt : ℝ) : EReal)

/-- A bit widened to a word reads, the second way, as the bit itself. -/
theorem wordBit_widen (b : BitVec 1) : wordBit (b.setWidth 32) = bit b := by
  rcases BitVec.eq_zero_or_eq_one b with rfl | rfl
  · have h : ((IntOp.cmpi .ne ((0#1).setWidth 32) 0#32).setWidth 32).toInt = 0 := by decide
    unfold wordBit bit
    rw [h]
    simp
  · have h : ((IntOp.cmpi .ne ((1#1).setWidth 32) 0#32).setWidth 32).toInt = 1 := by decide
    unfold wordBit bit
    rw [h]
    simp

/-- The score of row `b` against class `c`: over all positions, the product of the two bits. -/
def score (X : (⟨2, ![8192, 16384]⟩ : Shape).Idx → BitVec 1) (S : (⟨2, ![1000, 16384]⟩ : Shape).Idx → BitVec 1)
    (b : Fin 8192) (c : Fin 1000) : EReal :=
  ∑ n : Fin 16384, bit (X (ix2 b n)) * bit (S (ix2 c n))

/-- The z-score of a score `a` against the class mean `mu` and the class deviation `sd` clamped from below by the
    literal `0x3C3504F3`. -/
def zs (a mu sd : EReal) : EReal := Ideal.div (a - mu) (max sd (Ideal.ofBits .f32 0x3C3504F3#32))

/-- What follows the z-score: zero for a not-a-number (the comparison of the value with itself, which no extended real
    fails), ten for plus infinity, minus ten for minus infinity; then the quotient by the literal 1.5. -/
def tail (z : EReal) : EReal :=
  let w0 := Scalar.select (Ideal.cmp .une z z) (Ideal.ofBits .f32 0x00000000#32) z
  let w1 := Scalar.select (Ideal.cmp .oeq w0 (Ideal.ofBits .f32 0x7F800000#32)) (Ideal.ofBits .f32 0x41200000#32) w0
  let w2 := Scalar.select (Ideal.cmp .oeq w1 (Ideal.ofBits .f32 0xFF800000#32)) (Ideal.ofBits .f32 0xC1200000#32) w1
  Ideal.div w2 (Ideal.ofBits .f32 0x3FC00000#32)

/-- From a score to the result. -/
def epilogue (a mu sd : EReal) : EReal := tail (zs a mu sd)

/-- The whole [8192, 1000] result as one function of the four argument arrays. -/
def result (X : (⟨2, ![8192, 16384]⟩ : Shape).Idx → BitVec 1) (S : (⟨2, ![1000, 16384]⟩ : Shape).Idx → BitVec 1)
    (mu sd : (⟨1, ![1000]⟩ : Shape).Idx → EReal) : (⟨2, ![8192, 1000]⟩ : Shape).Idx → EReal :=
  fun j => epilogue (score X S (j 0) (j 1)) (mu (ix1 (j 1))) (sd (ix1 (j 1)))

/-- At an index given by its coordinates. -/
theorem result_apply (X : (⟨2, ![8192, 16384]⟩ : Shape).Idx → BitVec 1) (S : (⟨2, ![1000, 16384]⟩ : Shape).Idx → BitVec 1)
    (mu sd : (⟨1, ![1000]⟩ : Shape).Idx → EReal) (b : Fin 8192) (c : Fin 1000) :
    result X S mu sd (ix2 b c) = epilogue (score X S b c) (mu (ix1 c)) (sd (ix1 c)) := rfl

/-- A sum over 16384 positions is the sum over eight stretches of the sums over each stretch's 2048 positions. -/
theorem sum_stretches {M : Type*} [AddCommMonoid M] (f : ℕ → M) :
    ∑ n : Fin 16384, f n.val = ∑ s ∈ Finset.range 8, ∑ k : Fin 2048, f (2048 * s + k.val) := by
  rw [Finset.sum_range]
  have h : ∑ n : Fin (8 * 2048), f n.val = ∑ x : Fin 8 × Fin 2048, f (finProdFinEquiv x).val :=
    (Equiv.sum_comp finProdFinEquiv (fun n : Fin (8 * 2048) => f n.val)).symm
  refine h.trans ?_
  rw [Fintype.sum_prod_type]
  refine Finset.sum_congr rfl fun s _ => Finset.sum_congr rfl fun k _ => ?_
  refine congrArg f ?_
  rw [finProdFinEquiv_apply_val]
  dsimp only
  omega

/-- The product of the two bits at position `n` of row `b` and class `c`, for every natural `n` (zero past the row's end). -/
def term (X : (⟨2, ![8192, 16384]⟩ : Shape).Idx → BitVec 1) (S : (⟨2, ![1000, 16384]⟩ : Shape).Idx → BitVec 1)
    (b : Fin 8192) (c : Fin 1000) (n : ℕ) : EReal :=
  if h : n < 16384 then bit (X (ix2 b ⟨n, h⟩)) * bit (S (ix2 c ⟨n, h⟩)) else 0

/-- The score as the sum over the eight stretches of each stretch's sum of products. -/
theorem score_eq_stretches (X : (⟨2, ![8192, 16384]⟩ : Shape).Idx → BitVec 1) (S : (⟨2, ![1000, 16384]⟩ : Shape).Idx → BitVec 1)
    (b : Fin 8192) (c : Fin 1000) :
    score X S b c = ∑ s ∈ Finset.range 8, ∑ k : Fin 2048, term X S b c (2048 * s + k.val) := by
  rw [← sum_stretches (term X S b c)]
  unfold score
  refine Finset.sum_congr rfl fun n _ => ?_
  unfold term
  rw [dif_pos n.isLt]

end Cert.Popcount

end
-- ==== Proof.RefValue.lean ====
/-
  The reference's result term, read at an index of the [8192, 1000] result at the ideal values: it is the shared
  specification `Popcount.result` of the four arguments. The contraction of the two converted bit arrays over their
  second axis is the sum over the 16384 positions of the products of the bits; the two per-class vectors are spread
  over the rows, so at `(b, c)` they read at `c`; everything after the contraction acts element by element.
-/
import proofs.«415984_j43439299231975_3_alg».proof.Proof.RefRun
import proofs.«415984_j43439299231975_3_alg».proof.Proof.Popcount
import Idealize.ShloMosaic.Lib.Pipeline.Value

noncomputable section

open scoped BigOperators

namespace Cert.ReferenceIdeal.RefValue

open Cert.ReferenceIdeal Cert.ReferenceIdeal.Gen Cert.ReferenceIdeal.HostRun Cert.Popcount
open Idealize.ShloMosaic Idealize.ShloMosaic.ValueIdx

/-! ## The contraction's operand indices, axis by axis -/

theorem lhs_0 (i : S8192x1000.Idx) (q : dot_S8192x16384_S1000x16384_S8192x1000_1_1_0_0_n_n.contr.Idx) :
    (dot_S8192x16384_S1000x16384_S8192x1000_1_1_0_0_n_n.lhsIdx i q 0).val = (i 0).val := by
  unfold DotDims.lhsIdx
  rw [dif_neg (show ¬(0 : Fin S8192x16384.rank) ∈ dot_S8192x16384_S1000x16384_S8192x1000_1_1_0_0_n_n.lhsBatch by decide), dif_pos (show (0 : Fin S8192x16384.rank) ∈ dot_S8192x16384_S1000x16384_S8192x1000_1_1_0_0_n_n.lhsNonContracting by decide)]
  rfl
theorem lhs_1 (i : S8192x1000.Idx) (q : dot_S8192x16384_S1000x16384_S8192x1000_1_1_0_0_n_n.contr.Idx) :
    (dot_S8192x16384_S1000x16384_S8192x1000_1_1_0_0_n_n.lhsIdx i q 1).val = (q ⟨0, by decide⟩).val :=
  dot_S8192x16384_S1000x16384_S8192x1000_1_1_0_0_n_n.lhsIdx_val_of_single rfl i q
theorem rhs_0 (i : S8192x1000.Idx) (q : dot_S8192x16384_S1000x16384_S8192x1000_1_1_0_0_n_n.contr.Idx) :
    (dot_S8192x16384_S1000x16384_S8192x1000_1_1_0_0_n_n.rhsIdx i q 0).val = (i 1).val := by
  unfold DotDims.rhsIdx
  rw [dif_neg (show ¬(0 : Fin S1000x16384.rank) ∈ dot_S8192x16384_S1000x16384_S8192x1000_1_1_0_0_n_n.rhsBatch by decide), dif_pos (show (0 : Fin S1000x16384.rank) ∈ dot_S8192x16384_S1000x16384_S8192x1000_1_1_0_0_n_n.rhsNonContracting by decide)]
  rfl
theorem rhs_1 (i : S8192x1000.Idx) (q : dot_S8192x16384_S1000x16384_S8192x1000_1_1_0_0_n_n.contr.Idx) :
    (dot_S8192x16384_S1000x16384_S8192x1000_1_1_0_0_n_n.rhsIdx i q 1).val = (q ⟨0, by decide⟩).val :=
  dot_S8192x16384_S1000x16384_S8192x1000_1_1_0_0_n_n.rhsIdx_val_of_single rfl i q

/-- The host's contraction at `(b, c)`: the sum over the shared axis of the products of row `b` of the left operand and
    row `c` of the right. -/
theorem dot_apply (xf : FVec Ideal S8192x16384 .f32) (sf : FVec Ideal S1000x16384 .f32) (b : Fin 8192) (c : Fin 1000) :
    Host.dotGeneral dot_S8192x16384_S1000x16384_S8192x1000_1_1_0_0_n_n none xf sf (ix2 b c) = ∑ n : Fin 16384, xf (ix2 b n) * sf (ix2 c n) := by
  simp only [Host.dotGeneral]
  rw [Ideal.dotGeneral_apply, ← Equiv.sum_comp (contrEquiv1 dot_S8192x16384_S1000x16384_S8192x1000_1_1_0_0_n_n 16384 rfl rfl).symm]
  refine Finset.sum_congr rfl fun k _ => ?_
  have hk := contrEquiv1_symm_val dot_S8192x16384_S1000x16384_S8192x1000_1_1_0_0_n_n 16384 rfl rfl k
  have el : dot_S8192x16384_S1000x16384_S8192x1000_1_1_0_0_n_n.lhsIdx (ix2 b c) ((contrEquiv1 dot_S8192x16384_S1000x16384_S8192x1000_1_1_0_0_n_n 16384 rfl rfl).symm k) = ix2 b k := funext fun a => Fin.ext (by
    match a with
    | ⟨0, _⟩ => exact lhs_0 _ _
    | ⟨1, _⟩ => exact (lhs_1 _ _).trans hk)
  have er : dot_S8192x16384_S1000x16384_S8192x1000_1_1_0_0_n_n.rhsIdx (ix2 b c) ((contrEquiv1 dot_S8192x16384_S1000x16384_S8192x1000_1_1_0_0_n_n 16384 rfl rfl).symm k) = ix2 c k := funext fun a => Fin.ext (by
    match a with
    | ⟨0, _⟩ => exact rhs_0 _ _
    | ⟨1, _⟩ => exact (rhs_1 _ _).trans hk)
  rw [el, er]

/-- A per-class vector spread over the rows reads, at `(b, c)`, its entry `c`. -/
theorem rows_apply (v : FVec Ideal S1000 .f32) (b : Fin 8192) (c : Fin 1000) : rows v (ix2 b c) = v (ix1 c) := by
  show broadcastInDim S8192x1000 ![0, 1] bcast_S1x1000_S8192x1000_0_1 (broadcastInDim S1x1000 ![1] bcast_S1000_S1x1000_1 v) (ix2 b c) = _
  rw [broadcastInDim_apply _ _ _ (ix2 b c) (ix2 (0 : Fin 1) c) (by
    intro a
    match a with
    | ⟨0, _⟩ => rfl
    | ⟨1, _⟩ => rfl)]
  rw [broadcastInDim_apply _ _ _ (ix2 (0 : Fin 1) c) (ix1 c) (by
    intro a
    match a with
    | ⟨0, _⟩ => rfl)]

/-- The z-score array at `(b, c)`. -/
theorem zscore_apply (X : IVec S8192x16384 1) (S : IVec S1000x16384 1) (mu sd : FVec Ideal S1000 .f32) (b : Fin 8192) (c : Fin 1000) :
    zscore (F := Ideal) X S mu sd (ix2 b c) = zs (score X S b c) (mu (ix1 c)) (sd (ix1 c)) := by
  show Ideal.div (Host.dotGeneral dot_S8192x16384_S1000x16384_S8192x1000_1_1_0_0_n_n none (uitofp (F := Ideal) .f32 X) (uitofp (F := Ideal) .f32 S) (ix2 b c) - rows mu (ix2 b c))
      (rows (maximumf sd (broadcastInDim S1000 ![] bcast_S_S1000 (constant S_ .f32 0x3C3504F3#32))) (ix2 b c)) = _
  rw [dot_apply, rows_apply, rows_apply]
  rfl

/-- The replacement of special values and the division by the temperature act element by element. -/
theorem finish_apply (z : FVec Ideal S8192x1000 .f32) (j : S8192x1000.Idx) : finish z j = tail (z j) := rfl

/-- The reference's result term is the specification. -/
theorem refTerm_eq (X : IVec S8192x16384 1) (S : IVec S1000x16384 1) (mu sd : FVec Ideal S1000 .f32) :
    refTerm (F := Ideal) X S mu sd = result X S mu sd := by
  funext j
  obtain ⟨b, c, rfl⟩ : ∃ (b : Fin 8192) (c : Fin 1000), j = ix2 b c := ⟨j 0, j 1, eq_ix2 j⟩
  rw [result_apply]
  unfold refTerm epilogue
  rw [finish_apply, zscore_apply]

end Cert.ReferenceIdeal.RefValue

end
-- ==== Proof.KernelValue.lean ====
/-
  The kernel's result array, read at an index at the ideal values: it is the shared specification `Popcount.result`
  of the four arguments.

  The grid has 64 points, `t = 8·r + s`: row block `r` (1024 rows) and stretch `s` (2048 positions). At `s = 0` the
  output block is set to zero and the first stretch's products are added; at each later `s` the stretch's products
  are added to what the point before left; at `s = 7`, after the last addition, the block is replaced by its z-scores
  with special values replaced, over the temperature, and written back. So the block that row block `r` writes back holds,
  at `(p, q)`, the finishing function of the sum over the eight stretches of the stretch's sum of products: the whole
  row's score, since the stretches tile the 16384 positions. The window blocks are read off the arrays the region finds:
  the two bit arrays widened to words by the host, the two per-class vectors reshaped to [1, 1000].
-/
import proofs.«415984_j43439299231975_3_alg».proof.Proof.Gen.KernelIdeal.Value
import proofs.«415984_j43439299231975_3_alg».proof.Proof.Popcount
import Idealize.ShloMosaic.Lib.Pipeline.Value
import Idealize.ShloMosaic.Lib.StableHlo.Run

noncomputable section

open scoped BigOperators

namespace Cert.KernelIdeal.Bridge

open Cert.KernelIdeal Cert.KernelIdeal.Gen Cert.Popcount
open Idealize.ShloMosaic Idealize.ShloMosaic.TcCoe Idealize.SL.Sem Idealize.ShloMosaic.ValueIdx
open Idealize.ShloMosaic.Pipeline (Dat)

/-! ## The body's three stored values at an index -/

theorem lhs_0 (i : S1024x1000.Idx) (q : dot_S1024x2048_S1000x2048_S1024x1000_1_1_0_0_n_n.contr.Idx) :
    (dot_S1024x2048_S1000x2048_S1024x1000_1_1_0_0_n_n.lhsIdx i q 0).val = (i 0).val := by
  unfold DotDims.lhsIdx
  rw [dif_neg (show ¬(0 : Fin S1024x2048.rank) ∈ dot_S1024x2048_S1000x2048_S1024x1000_1_1_0_0_n_n.lhsBatch by decide), dif_pos (show (0 : Fin S1024x2048.rank) ∈ dot_S1024x2048_S1000x2048_S1024x1000_1_1_0_0_n_n.lhsNonContracting by decide)]
  rfl
theorem lhs_1 (i : S1024x1000.Idx) (q : dot_S1024x2048_S1000x2048_S1024x1000_1_1_0_0_n_n.contr.Idx) :
    (dot_S1024x2048_S1000x2048_S1024x1000_1_1_0_0_n_n.lhsIdx i q 1).val = (q ⟨0, by decide⟩).val :=
  dot_S1024x2048_S1000x2048_S1024x1000_1_1_0_0_n_n.lhsIdx_val_of_single rfl i q
theorem rhs_0 (i : S1024x1000.Idx) (q : dot_S1024x2048_S1000x2048_S1024x1000_1_1_0_0_n_n.contr.Idx) :
    (dot_S1024x2048_S1000x2048_S1024x1000_1_1_0_0_n_n.rhsIdx i q 0).val = (i 1).val := by
  unfold DotDims.rhsIdx
  rw [dif_neg (show ¬(0 : Fin S1000x2048.rank) ∈ dot_S1024x2048_S1000x2048_S1024x1000_1_1_0_0_n_n.rhsBatch by decide), dif_pos (show (0 : Fin S1000x2048.rank) ∈ dot_S1024x2048_S1000x2048_S1024x1000_1_1_0_0_n_n.rhsNonContracting by decide)]
  rfl
theorem rhs_1 (i : S1024x1000.Idx) (q : dot_S1024x2048_S1000x2048_S1024x1000_1_1_0_0_n_n.contr.Idx) :
    (dot_S1024x2048_S1000x2048_S1024x1000_1_1_0_0_n_n.rhsIdx i q 1).val = (q ⟨0, by decide⟩).val :=
  dot_S1024x2048_S1000x2048_S1024x1000_1_1_0_0_n_n.rhsIdx_val_of_single rfl i q

/-- The body's matrix product into the zero block, at `(p, q)`: the sum over the stretch of the products of row `p` of
    the left operand and row `q` of the right. -/
theorem product_apply (xf : FVec Ideal S1024x2048 .bf16) (sf : FVec Ideal S1000x2048 .bf16) (p : Fin 1024) (q : Fin 1000) :
    matmul dot_S1024x2048_S1000x2048_S1024x1000_1_1_0_0_n_n none xf sf (constant (F := Ideal) S1024x1000 .f32 0x00000000#32) (ix2 p q)
      = ∑ k : Fin 2048, xf (ix2 p k) * sf (ix2 q k) := by
  simp only [matmul]
  rw [Ideal.matmul_constant_zero_apply, ← Equiv.sum_comp (contrEquiv1 dot_S1024x2048_S1000x2048_S1024x1000_1_1_0_0_n_n 2048 rfl rfl).symm]
  refine Finset.sum_congr rfl fun k _ => ?_
  have hk := contrEquiv1_symm_val dot_S1024x2048_S1000x2048_S1024x1000_1_1_0_0_n_n 2048 rfl rfl k
  have el : dot_S1024x2048_S1000x2048_S1024x1000_1_1_0_0_n_n.lhsIdx (ix2 p q) ((contrEquiv1 dot_S1024x2048_S1000x2048_S1024x1000_1_1_0_0_n_n 2048 rfl rfl).symm k) = ix2 p k := funext fun a => Fin.ext (by
    match a with
    | ⟨0, _⟩ => exact lhs_0 _ _
    | ⟨1, _⟩ => exact (lhs_1 _ _).trans hk)
  have er : dot_S1024x2048_S1000x2048_S1024x1000_1_1_0_0_n_n.rhsIdx (ix2 p q) ((contrEquiv1 dot_S1024x2048_S1000x2048_S1024x1000_1_1_0_0_n_n 2048 rfl rfl).symm k) = ix2 q k := funext fun a => Fin.ext (by
    match a with
    | ⟨0, _⟩ => exact rhs_0 _ _
    | ⟨1, _⟩ => exact (rhs_1 _ _).trans hk)
  rw [el, er]

/-- The first stored value is the zero block. -/
theorem zero_apply (j : S1024x1000.Idx) : k0_pay1 (F := Ideal) j = 0 := by
  unfold k0_pay1
  exact Ideal.ofBits_zero_f32

/-- The second stored value at `(p, q)`: what the block held plus the stretch's sum of products of the two word blocks'
    rows, each word read as 0 or 1. -/
theorem accumulate_apply (x0 : Vec Ideal S1024x2048 .i32) (x1 : Vec Ideal S1000x2048 .i32) (acc : Vec Ideal S1024x1000 .f32)
    (p : Fin 1024) (q : Fin 1000) :
    k0_pay2 (F := Ideal) x0 x1 acc (ix2 p q)
      = acc (ix2 p q) + ∑ k : Fin 2048, wordBit (x0 (ix2 p k)) * wordBit (x1 (ix2 q k)) := by
  unfold k0_pay2
  rw [addf_apply, shapeCast_self, product_apply]
  rfl

/-- A [1, 1000] vector spread over the 1024 rows of a block reads, at `(p, q)`, its entry `(0, q)`. -/
theorem spread_apply (v : FVec Ideal S1x1000 .f32) (p : Fin 1024) (q : Fin 1000) :
    broadcastTo S1024x1000 v broadcasts_S1x1000_S1024x1000 (ix2 p q) = v (ix2 (0 : Fin 1) q) :=
  broadcastTo_apply v _ (ix2 p q) (ix2 (0 : Fin 1) q) (by
    intro a
    match a with
    | ⟨0, _⟩ => rfl
    | ⟨1, _⟩ => rfl)

/-- The third stored value at `(p, q)`: the finishing function of what the block held there, against the class mean
    and deviation at `q`. -/
theorem finish_apply (x3 : Vec Ideal S1x1000 .f32) (acc : Vec Ideal S1024x1000 .f32) (x2 : Vec Ideal S1x1000 .f32)
    (p : Fin 1024) (q : Fin 1000) :
    k0_pay3 (F := Ideal) x3 acc x2 (ix2 p q) = epilogue (acc (ix2 p q)) (x2 (ix2 (0 : Fin 1) q)) (x3 (ix2 (0 : Fin 1) q)) := by
  unfold k0_pay3
  show tail (Ideal.div
      (shapeCast S1024x1000 acc shapeCasts_S1024x1000_S1024x1000 (ix2 p q)
        - broadcastTo S1024x1000 (shapeCast S1x1000 x2 shapeCasts_S1x1000_S1x1000) broadcasts_S1x1000_S1024x1000 (ix2 p q))
      (broadcastTo S1024x1000 (maximumf (shapeCast S1x1000 x3 shapeCasts_S1x1000_S1x1000) (broadcast S1x1000 (Scalar.ofBits (F := Ideal) .f32 0x3C3504F3#32)))
        broadcasts_S1x1000_S1024x1000 (ix2 p q))) = _
  rw [spread_apply, spread_apply, shapeCast_self, shapeCast_self, shapeCast_self]
  rfl

/-! ## The window blocks, read off the arrays the region finds -/

variable (m : (ℓ : Loc nD τ sig) → Buf (Elt Ideal) ℓ)

/-- The printed index maps over the grid: the first bit array's block is (row block, stretch), the second's is
    (0, stretch), the two vectors' is (0, 0). -/
theorem idx_facts : ∀ t : Fin cfg0.N, win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The four input blocks and the four arrays at their literal types. -/
abbrev xblk (c : Dev nD) (t : Fin cfg0.N) : Vec Ideal S1024x2048 .i32 := iblk m c 0 t
abbrev sblk (c : Dev nD) (t : Fin cfg0.N) : Vec Ideal S1000x2048 .i32 := iblk m c 1 t
abbrev mublk (c : Dev nD) (t : Fin cfg0.N) : Vec Ideal S1x1000 .f32 := iblk m c 2 t
abbrev sdblk (c : Dev nD) (t : Fin cfg0.N) : Vec Ideal S1x1000 .f32 := iblk m c 3 t
abbrev xarr (c : Dev nD) : Vec Ideal S8192x16384 .i32 := V m c main_v2
abbrev sarr (c : Dev nD) : Vec Ideal S1000x16384 .i32 := V m c main_v3
abbrev muarr (c : Dev nD) : Vec Ideal S1x1000 .f32 := V m c main_v0
abbrev sdarr (c : Dev nD) : Vec Ideal S1x1000 .f32 := V m c main_v1

/-- Entry `(p, k)` of the first word array's block at point `t` is entry (1024·(t / 8) + p, 2048·(t % 8) + k) of the array. -/
theorem xblk_apply (c : Dev nD) (t : Fin cfg0.N) (p : Fin 1024) (k : Fin 2048) (r : Fin 8192) (n : Fin 16384)
    (hr : r.val = 1024 * (t.val / 8) + p.val) (hn : n.val = 2048 * (t.val % 8) + k.val) :
    xblk m c t (ix2 p k) = xarr m c (ix2 r n) := by
  obtain ⟨e0, e1, -⟩ := idx_facts t
  unfold xblk xarr iblk
  rw [View.read_apply]
  show V m c main_v2 _ = V m c main_v2 _
  refine congrArg (V m c main_v2) (funext fun a => Fin.ext ?_)
  match a with
  | ⟨0, _⟩ => show win0_0.index t 0 * 1024 + 1 * p.val = r.val; rw [e0, hr]; omega
  | ⟨1, _⟩ => show win0_0.index t 1 * 2048 + 1 * k.val = n.val; rw [e1, hn]; omega

/-- Entry `(q, k)` of the second word array's block at point `t` is entry (q, 2048·(t % 8) + k) of the array. -/
theorem sblk_apply (c : Dev nD) (t : Fin cfg0.N) (q : Fin 1000) (k : Fin 2048) (n : Fin 16384)
    (hn : n.val = 2048 * (t.val % 8) + k.val) :
    sblk m c t (ix2 q k) = sarr m c (ix2 q n) := by
  obtain ⟨-, -, e0, e1, -⟩ := idx_facts t
  unfold sblk sarr iblk
  rw [View.read_apply]
  show V m c main_v3 _ = V m c main_v3 _
  refine congrArg (V m c main_v3) (funext fun a => Fin.ext ?_)
  match a with
  | ⟨0, _⟩ => show win0_1.index t 0 * 1000 + 1 * q.val = q.val; rw [e0]; omega
  | ⟨1, _⟩ => show win0_1.index t 1 * 2048 + 1 * k.val = n.val; rw [e1, hn]; omega

/-- The class means' block is the whole [1, 1000] array at every point. -/
theorem mublk_apply (c : Dev nD) (t : Fin cfg0.N) (q : Fin 1000) :
    mublk m c t (ix2 (0 : Fin 1) q) = muarr m c (ix2 (0 : Fin 1) q) := by
  obtain ⟨-, -, -, -, e0, e1, -⟩ := idx_facts t
  unfold mublk muarr iblk
  rw [View.read_apply]
  show V m c main_v0 _ = V m c main_v0 _
  refine congrArg (V m c main_v0) (funext fun a => Fin.ext ?_)
  match a with
  | ⟨0, _⟩ => show win0_2.index t 0 * 1 + 1 * 0 = 0; rw [e0]
  | ⟨1, _⟩ => show win0_2.index t 1 * 1000 + 1 * q.val = q.val; rw [e1]; omega

/-- The class deviations' block likewise. -/
theorem sdblk_apply (c : Dev nD) (t : Fin cfg0.N) (q : Fin 1000) :
    sdblk m c t (ix2 (0 : Fin 1) q) = sdarr m c (ix2 (0 : Fin 1) q) := by
  obtain ⟨-, -, -, -, -, -, e0, e1⟩ := idx_facts t
  unfold sdblk sdarr iblk
  rw [View.read_apply]
  show V m c main_v1 _ = V m c main_v1 _
  refine congrArg (V m c main_v1) (funext fun a => Fin.ext ?_)
  match a with
  | ⟨0, _⟩ => show win0_3.index t 0 * 1 + 1 * 0 = 0; rw [e0]
  | ⟨1, _⟩ => show win0_3.index t 1 * 1000 + 1 * q.val = q.val; rw [e1]; omega

/-- The host operations before the region: the first bit array widened to words, -/
theorem xarr_eq (c : Dev nD) : xarr m c = extui 32 (m ((c : Thread nD τ).loc main_arg0)) natLt_1_32 := by
  show (V m c main_v2 : S8192x16384.Idx → BitVec 32) = _
  dsimp only [Gen.V, Gen.hostOps0]
  after_results
/-- the second likewise, -/
theorem sarr_eq (c : Dev nD) : sarr m c = extui 32 (m ((c : Thread nD τ).loc main_arg1)) natLt_1_32 := by
  show (V m c main_v3 : S1000x16384.Idx → BitVec 32) = _
  dsimp only [Gen.V, Gen.hostOps0]
  after_results
/-- the class means reshaped to [1, 1000], -/
theorem muarr_eq (c : Dev nD) : muarr m c = shapeCast S1x1000 (m ((c : Thread nD τ).loc main_arg2)) shapeCasts_S1000_S1x1000 := by
  show (V m c main_v0 : S1x1000.Idx → EReal) = _
  dsimp only [Gen.V, Gen.hostOps0]
  after_results
  rfl
/-- and the class deviations likewise. -/
theorem sdarr_eq (c : Dev nD) : sdarr m c = shapeCast S1x1000 (m ((c : Thread nD τ).loc main_arg3)) shapeCasts_S1000_S1x1000 := by
  show (V m c main_v1 : S1x1000.Idx → EReal) = _
  dsimp only [Gen.V, Gen.hostOps0]
  after_results
  rfl

/-- A [1000] vector reshaped to [1, 1000] reads, at `(0, q)`, its entry `q`. -/
theorem reshape_apply (v : S1000.Idx → EReal) (q : Fin 1000) :
    shapeCast S1x1000 v shapeCasts_S1000_S1x1000 (ix2 (0 : Fin 1) q) = v (ix1 q) :=
  shapeCast_apply v _ (ix2 (0 : Fin 1) q) (ix1 q) (by
    rw [Shape.rowMajor_val_one, Shape.rowMajor_val_two]
    show q.val = 0 * 1000 + q.val
    omega)

/-- The class mean a point's body reads at `(0, q)` is the argument's entry `q`, -/
theorem mu_read (c : Dev nD) (t : Fin cfg0.N) (q : Fin 1000) :
    mublk m c t (ix2 (0 : Fin 1) q) = (m ((c : Thread nD τ).loc main_arg2) : S1000.Idx → EReal) (ix1 q) := by
  rw [mublk_apply, muarr_eq, reshape_apply]
/-- and the class deviation likewise. -/
theorem sd_read (c : Dev nD) (t : Fin cfg0.N) (q : Fin 1000) :
    sdblk m c t (ix2 (0 : Fin 1) q) = (m ((c : Thread nD τ).loc main_arg3) : S1000.Idx → EReal) (ix1 q) := by
  rw [sdblk_apply, sdarr_eq, reshape_apply]

/-! ## The fold over a row block's eight points -/

/-- What point `n` adds at `(p, q)` of the output block: over its stretch, the products of row `p` of the first word
    block and row `q` of the second, each word read as 0 or 1 (zero past the grid, where it is never used). -/
def rowdot (c : Dev nD) (n : ℕ) (p : Fin 1024) (q : Fin 1000) : EReal :=
  if h : n < cfg0.N then ∑ k : Fin 2048, wordBit (xblk m c ⟨n, h⟩ (ix2 p k)) * wordBit (sblk m c ⟨n, h⟩ (ix2 q k)) else 0

theorem rowdot_eq (c : Dev nD) (n : ℕ) (h : n < cfg0.N) (p : Fin 1024) (q : Fin 1000) :
    rowdot m c n p q = ∑ k : Fin 2048, wordBit (xblk m c ⟨n, h⟩ (ix2 p k)) * wordBit (sblk m c ⟨n, h⟩ (ix2 q k)) := dif_pos h

/-- The same over an index of the block. -/
def addend (c : Dev nD) (n : ℕ) (i : S1024x1000.Idx) : EReal := rowdot m c n (i 0) (i 1)

/-- The accumulating store at point `n`, at `(p, q)`: what the block held plus the point's addend. -/
theorem step_apply (c : Dev nD) (n : ℕ) (h : n < cfg0.N) (acc : Vec Ideal S1024x1000 .f32) (p : Fin 1024) (q : Fin 1000) :
    k0_pay2 (F := Ideal) (xblk m c ⟨n, h⟩) (sblk m c ⟨n, h⟩) acc (ix2 p q) = acc (ix2 p q) + rowdot m c n p q := by
  rw [accumulate_apply, rowdot_eq m c n h]

/-- After the eighth point of row block `r` the output block holds, at `(p, q)`, the finishing function of the sum of the
    eight points' addends, against the class mean and deviation at `q`: the first point starts from zero, the next six add,
    the eighth adds and finishes. -/
theorem fold_apply (c : Dev nD) (r : ℕ) (hr : 8 * r + 7 < cfg0.N) (p : Fin 1024) (q : Fin 1000) :
    Pipeline.accAt (Value.reset4 m c) (Value.step4 m c) (8 * r) 7 hr (ix2 p q)
      = epilogue (∑ s ∈ Finset.range 8, rowdot m c (8 * r + s) p q)
          (mublk m c ⟨8 * r + 7, hr⟩ (ix2 (0 : Fin 1) q)) (sdblk m c ⟨8 * r + 7, hr⟩ (ix2 (0 : Fin 1) q)) := by
  have h6 := Pipeline.accAt_add_apply (ι := S1024x1000.Idx) (β := EReal) (Value.reset4 m c) (Value.step4 m c)
    (fun _ => 0) (addend m c) (8 * r) 6
    (fun h i => by
      obtain ⟨p', q', rfl⟩ : ∃ (p' : Fin 1024) (q' : Fin 1000), i = ix2 p' q' := ⟨i 0, i 1, eq_ix2 i⟩
      show k0_pay2 (F := Ideal) (xblk m c ⟨8 * r, h⟩) (sblk m c ⟨8 * r, h⟩) (k0_pay1 (F := Ideal)) (ix2 p' q') = 0 + rowdot m c (8 * r) p' q'
      rw [step_apply, zero_apply])
    (fun n h acc i h1 h2 => by
      obtain ⟨p', q', rfl⟩ : ∃ (p' : Fin 1024) (q' : Fin 1000), i = ix2 p' q' := ⟨i 0, i 1, eq_ix2 i⟩
      unfold Value.step4
      rw [if_pos ⟨by omega, by omega⟩]
      show k0_pay2 (F := Ideal) (xblk m c ⟨n, h⟩) (sblk m c ⟨n, h⟩) acc (ix2 p' q') = acc (ix2 p' q') + rowdot m c n p' q'
      rw [step_apply])
    6 le_rfl (Nat.lt_of_succ_lt hr) (ix2 p q)
  have hsum : Pipeline.accAt (Value.reset4 m c) (Value.step4 m c) (8 * r) 6 (Nat.lt_of_succ_lt hr) (ix2 p q) + rowdot m c (8 * r + (6 + 1)) p q
      = ∑ s ∈ Finset.range 8, rowdot m c (8 * r + s) p q := by
    rw [h6, Finset.sum_range_succ (fun s => rowdot m c (8 * r + s) p q) 7, zero_add]
    rfl
  have hstep : ∀ acc, Value.step4 m c (8 * r + (6 + 1)) hr acc
      = k0_pay3 (F := Ideal) (sdblk m c ⟨8 * r + (6 + 1), hr⟩) (k0_pay2 (F := Ideal) (xblk m c ⟨8 * r + (6 + 1), hr⟩) (sblk m c ⟨8 * r + (6 + 1), hr⟩) acc) (mublk m c ⟨8 * r + (6 + 1), hr⟩) := by
    intro acc
    unfold Value.step4
    rw [if_neg (by omega), if_pos ⟨by omega, by omega⟩]
  show Pipeline.accAt (Value.reset4 m c) (Value.step4 m c) (8 * r) (6 + 1) hr (ix2 p q) = _
  rw [Pipeline.accAt_succ, hstep, finish_apply, step_apply, hsum]

/-! ## The eight stretches are the whole row -/

/-- Point `8·R + s`'s addend at row `b % 1024` of row block `R = b / 1024` is the stretch `s` of row `b`'s sum of
    products of bits: the word blocks are blocks of the widened bit arrays, and a widened bit reads as the bit. -/
theorem rowdot_eq_term (c : Dev nD) (R s : ℕ) (hs : s < 8) (b : Fin 8192) (hR : b.val / 1024 = R) (q : Fin 1000) :
    rowdot m c (8 * R + s) ⟨b.val % 1024, Nat.mod_lt _ (by decide)⟩ q
      = ∑ k : Fin 2048, term (m ((c : Thread nD τ).loc main_arg0)) (m ((c : Thread nD τ).loc main_arg1)) b q (2048 * s + k.val) := by
  have hb := b.isLt
  have hN : 8 * R + s < cfg0.N := by rw [show cfg0.N = 64 from N_0]; omega
  rw [rowdot_eq m c _ hN]
  refine Finset.sum_congr rfl fun k _ => ?_
  have hk : 2048 * s + k.val < 16384 := by have := k.isLt; omega
  unfold term
  rw [dif_pos hk]
  rw [xblk_apply m c ⟨8 * R + s, hN⟩ _ k b ⟨2048 * s + k.val, hk⟩
      (by show b.val = 1024 * ((8 * R + s) / 8) + b.val % 1024; omega)
      (by show 2048 * s + k.val = 2048 * ((8 * R + s) % 8) + k.val; omega),
    sblk_apply m c ⟨8 * R + s, hN⟩ q k ⟨2048 * s + k.val, hk⟩
      (by show 2048 * s + k.val = 2048 * ((8 * R + s) % 8) + k.val; omega),
    xarr_eq, sarr_eq, extui_apply, extui_apply, wordBit_widen, wordBit_widen]

/-- The array the run leaves at `(b, q)`: the specification. -/
theorem G4_apply (c : Dev nD) (b : Fin 8192) (q : Fin 1000) :
    (Value.G4 m c : S8192x1000.Idx → EReal) (ix2 b q)
      = result (m ((c : Thread nD τ).loc main_arg0)) (m ((c : Thread nD τ).loc main_arg1))
          (m ((c : Thread nD τ).loc main_arg2)) (m ((c : Thread nD τ).loc main_arg3)) (ix2 b q) := by
  have hb := b.isLt
  have hq := q.isLt
  have hN : cfg0.N = 64 := N_0
  have hrun : Value.run4Of (ix2 b q) = b.val / 1024 := by
    show 1 * (b.val / 1024 - 0) + 1 * (q.val / 1000 - 0) = _
    have : q.val / 1000 = 0 := by omega
    omega
  have hR : 8 * (b.val / 1024) + 7 < cfg0.N := by rw [hN]; omega
  have hl : Value.loc4Of (ix2 b q) = ix2 (⟨b.val % 1024, Nat.mod_lt _ (by decide)⟩ : Fin 1024) q := by
    funext a
    apply Fin.ext
    match a with
    | ⟨0, _⟩ => rfl
    | ⟨1, _⟩ => show q.val % 1000 = q.val; omega
  have e : ∀ (b1 : ℕ) (h1 : b1 + 7 < cfg0.N) (b2 : ℕ) (h2 : b2 + 7 < cfg0.N), b1 = b2 →
      Pipeline.accAt (Value.reset4 m c) (Value.step4 m c) b1 7 h1 = Pipeline.accAt (Value.reset4 m c) (Value.step4 m c) b2 7 h2 := by
    intro b1 h1 b2 h2 hb12; subst hb12; rfl
  unfold Value.G4
  rw [dif_pos (by rw [hrun]; exact hR), e _ _ (8 * (b.val / 1024)) hR (by rw [hrun]), hl, fold_apply, mu_read, sd_read,
    result_apply, score_eq_stretches]
  refine congrArg (fun a => epilogue a _ _) (Finset.sum_congr rfl fun s hs => ?_)
  exact rowdot_eq_term m c (b.val / 1024) s (Finset.mem_range.mp hs) b rfl q

/-- The array the run leaves is the specification of the four arguments. -/
theorem G4_eq (c : Dev nD) :
    (Value.G4 m c : S8192x1000.Idx → EReal)
      = result (m ((c : Thread nD τ).loc main_arg0)) (m ((c : Thread nD τ).loc main_arg1))
          (m ((c : Thread nD τ).loc main_arg2)) (m ((c : Thread nD τ).loc main_arg3)) := by
  funext j
  obtain ⟨b, q, rfl⟩ : ∃ (b : Fin 8192) (q : Fin 1000), j = ix2 b q := ⟨j 0, j 1, eq_ix2 j⟩
  exact G4_apply m c b q

end Cert.KernelIdeal.Bridge

end
-- ==== Proof.lean ====
/-
  Popcount similarity with a z-score epilogue: a Pallas kernel against its jnp reference, equal over the extended reals.

  Both programs take two arrays of bits, `x` [8192, 16384] and `S` [1000, 16384], and two per-class vectors, a mean and a
  deviation [1000]. The score of row `b` against class `c` is the number of positions where both arrays hold a one,
  `Σ_n x[b, n] · S[c, n]` with each bit read as 0 or 1. The result is the score's z-score against the class mean, over the
  class deviation clamped from below by one literal, with a not-a-number replaced by 0 and the infinities by ±10, over 1.5.

  The reference takes each score as one contraction over the 16384 positions. The kernel walks a grid of 8 row blocks by
  8 stretches of 2048 positions: it keeps a row block's [1024, 1000] scores in its output block, zeroes them at the first
  stretch, adds each stretch's products, and after the last stretch applies the z-score epilogue in place and writes the
  block back. Sums of extended reals can be regrouped freely, so eight stretch sums added from zero are the whole sum; the
  two programs' ways of reading a bit as a number agree; and the epilogues are the same operations on the same literals.
  So both results are one function of the arguments (`Popcount.result`), whatever the arguments are: the precondition is
  not used by the value claim. The kernel's run and what its output block holds point by point are the generated frame
  and value leg; the reference's run is read back in RefRun; the two bridges to the shared function are KernelValue and
  RefValue. The idealization rewrote nothing, so `preserves` has nothing to state.
-/
import proofs.«415984_j43439299231975_3_alg».proof.Defs
import proofs.«415984_j43439299231975_3_alg».proof.Proof.Gen.Kernel
import proofs.«415984_j43439299231975_3_alg».proof.Proof.Gen.Kernel.Skeleton
import proofs.«415984_j43439299231975_3_alg».proof.Proof.Gen.Kernel.Launch
import proofs.«415984_j43439299231975_3_alg».proof.Proof.Gen.Kernel.Points
import proofs.«415984_j43439299231975_3_alg».proof.Proof.Gen.Kernel.Frame
import proofs.«415984_j43439299231975_3_alg».proof.Proof.Gen.KernelIdeal
import proofs.«415984_j43439299231975_3_alg».proof.Proof.Gen.KernelIdeal.Skeleton
import proofs.«415984_j43439299231975_3_alg».proof.Proof.Gen.KernelIdeal.Launch
import proofs.«415984_j43439299231975_3_alg».proof.Proof.Gen.KernelIdeal.Points
import proofs.«415984_j43439299231975_3_alg».proof.Proof.Gen.KernelIdeal.Frame
import proofs.«415984_j43439299231975_3_alg».proof.Proof.Gen.KernelIdeal.Value
import proofs.«415984_j43439299231975_3_alg».proof.Proof.Gen.ReferenceIdeal
import proofs.«415984_j43439299231975_3_alg».proof.Proof.Gen.Pre_finite_inputs
import proofs.«415984_j43439299231975_3_alg».proof.Proof.RefValue
import proofs.«415984_j43439299231975_3_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, read back, with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- From memories that agree on the four arguments both programs end with the same result array: the kernel's is the
    shared function of its arguments, the reference's is the shared function of its own, and the arguments agree. -/
theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2]
  exact (Cert.ReferenceIdeal.RefValue.refTerm_eq _ _ _ _).trans (Cert.KernelIdeal.Bridge.G4_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
